-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn_part1 {F : FTy → Type} [FloatOps F] (main_v13 : IVec S_ 1) (main_v16 : IVec S16x2048x2048 1) : IVec S_ 1 :=
  let main_c_5 : IVec S_ 1 := constantI S_ 1 1#1
  let main_v17 : IVec S_ 1 := (fun x v => Host.reduce IntOp.andi x v reducesTo_S16x2048x2048_S_d0_1_2 h_S_) main_v16 main_c_5
  let main_v18 : IVec S_ 1 := andi main_v13 main_v17
  main_v18

def fn {F : FTy → Type} [FloatOps F] (main_arg0 : FVec F S16x2048x128 .f32) (main_arg1 : FVec F S16x2048x128 .f32) (main_arg2 : FVec F S16x2048x128 .f32) (main_arg3 : FVec F S16x2048x2048 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  let main_v14 : FVec F S16x2048x2048 .f32 := Host.absf main_arg3
  let main_cst_4 : FVec F S_ .f32 := constant S_ .f32 0x7F800000#32
  let main_v15 : FVec F S16x2048x2048 .f32 := broadcastInDim S16x2048x2048 ![] bcast_S_S16x2048x2048 main_cst_4
  let main_v16 : IVec S16x2048x2048 1 := cmpf .olt main_v14 main_v15
  fn_part1 (F := F) main_v13 main_v16
-- ==== Kernel.lean ====
abbrev S16x2048x128 : Shape := ⟨3, ![16, 2048, 128]⟩
abbrev S16x2048x2048 : Shape := ⟨3, ![16, 2048, 2048]⟩
abbrev S1x2048x128 : Shape := ⟨3, ![1, 2048, 128]⟩
abbrev S1x512x128 : Shape := ⟨3, ![1, 512, 128]⟩
abbrev S1x2048x512 : Shape := ⟨3, ![1, 2048, 512]⟩
abbrev S2048x128 : Shape := ⟨2, ![2048, 128]⟩
abbrev S512x128 : Shape := ⟨2, ![512, 128]⟩
abbrev S2048x512 : Shape := ⟨2, ![2048, 512]⟩

abbrev nBuf : Space → Nat
  | .hbm => 5
  | .vmem => 11
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .f32⟩
  | .hbm, ⟨4, _⟩ => ⟨S16x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x2048x512, .f32⟩
  | .local _ .vmem, ⟨7, _⟩ => ⟨S1x2048x512, .f32⟩
  | .local _ .vmem, ⟨8, _⟩ => ⟨S1x2048x128, .f32⟩
  | .local _ .vmem, ⟨9, _⟩ => ⟨S1x2048x128, .f32⟩
  | .local _ .vmem, ⟨10, _⟩ => ⟨S2048x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_19 : BitVec 32 := 0#32
  let v30 : BitVec 1 := Scalar.cmpi .ne v29 c0_i32_19
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x128_S1x2048x128 : S2048x128.ShapeCasts S1x2048x128
  dot_S2048x128_S512x128_S2048x512_1_1_0_0_n_n_wf : DotDims.WF S2048x128 S512x128 S2048x512 [1] [1] [0] [0] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x2048x128.size a
  hwx0_0 : ∀ i : grid0.Coords, EltTy.bits .f32 = 32 ∨ (Rect.block (s := S16x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S16x2048x128.size a
  hwx0_1 : ∀ i : grid0.Coords, EltTy.bits .f32 = 32 ∨ (Rect.block (s := S16x2048x128) S1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S16x2048x128.size a
  hwx0_2 : ∀ i : grid0.Coords, EltTy.bits .f32 = 32 ∨ (Rect.block (s := S16x2048x128) S1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S16x2048x2048.size a
  hwx0_3 : ∀ i : grid0.Coords, EltTy.bits .f32 = 32 ∨ (Rect.block (s := S16x2048x2048) S1x2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S16x2048x128.size a
  hwx0_4 : ∀ i : grid0.Coords, EltTy.bits .f32 = 32 ∨ (Rect.block (s := S16x2048x128) S1x2048x128.size (cc0_transform_4 i) (hinb0_4 i)).WholeWords (EltTy.packing .f32)

variable [Facts₀]

def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .f32⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S_, .f32⟩
  | .hbm, ⟨18, _⟩ => ⟨S16x2048x2048, .f32⟩
  | .hbm, ⟨19, _⟩ => ⟨S16x2048x2048, .f32⟩
  | .hbm, ⟨20, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.Pieces.lean ====
/-
  What each of the body's three control cases leaves behind, as the body's arithmetic of the staged blocks.

  The body keeps a [2048, 128] accumulator across the four key tiles of a batch. At the first tile it stores zero
  into the accumulator and then replaces it by "what it holds plus the tile's product", so the accumulator ends at
  the update of zero; at the two middle tiles and at the last tile it ends at the update of what the tile before
  left; and at the last tile the output block is the accumulator, read back after the update, with a leading unit
  axis. Every load and store goes through the whole buffer, so a load reads the contents (or the payload just
  stored) and the last store decides what is left.
-/
import proofs.«155042_j82987358094192_1_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.Sem
open Cert.KernelIdeal Cert.KernelIdeal.Gen

variable {F : FTy → Type} [FloatOps F]

/-- Two zero offsets, however spelt. -/
theorem zero2 : (![0, 0] : Fin 2 → Nat) = fun _ => 0 := by
  funext a; match a with | ⟨0, _⟩ => rfl | ⟨1, _⟩ => rfl
/-- Three zero offsets, however spelt. -/
theorem zero3 : (![0, 0, 0] : Fin 3 → Nat) = fun _ => 0 := by
  funext a; match a with | ⟨0, _⟩ => rfl | ⟨1, _⟩ => rfl | ⟨2, _⟩ => rfl

/-- First tile of a batch: the accumulator ends at the update of the zero just stored. -/
theorem sout_A (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x2048x512 .f32) (harg5 : arg5.IsWhole) (arg6 : Memref sig .tc .vmem S1x2048x128 .f32) (harg6 : arg6.IsWhole) (arg7 : Memref sig .tc .vmem S2048x128 .f32) (harg7 : arg7.IsWhole) (hc0 : cond0_0 i) (hc1 : ¬cond0_1 i) (x0 : Vec F S1x2048x128 .f32) (x1 : Vec F S1x512x128 .f32) (x2 : Vec F S1x512x128 .f32) (x3 : Vec F S1x2048x512 .f32) :
    sout0_A_0 c i arg2 harg2 arg3 harg3 arg4 harg4 arg5 harg5 arg6 harg6 arg7 harg7 hc0 hc1 x0 x1 x2 x3 = k0_pay2 x0 x1 x3 x2 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A; dsimp only; sl_unfold_words
  rw [View.canon_cons_unit_zero (S := S2048x128) zero2]
  simp only [View.readAt_eq_ld, harg2.read_unread, harg3.read_unread, harg4.read_unread, harg5.read_unread, harg7.read_unread, View.ld_unit_zero (S := S1x2048x128) zero3, View.ld_unit_zero (S := S1x512x128) zero3, View.ld_unit_zero (S := S1x2048x512) zero3, View.ld_unit_zero (S := S2048x128) zero2, View.readCov_unit_zero (S := S2048x128) _ zero2]

/-- A middle tile: the accumulator ends at the update of what the tile before left. -/
theorem sout_B (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x2048x512 .f32) (harg5 : arg5.IsWhole) (arg6 : Memref sig .tc .vmem S1x2048x128 .f32) (harg6 : arg6.IsWhole) (arg7 : Memref sig .tc .vmem S2048x128 .f32) (harg7 : arg7.IsWhole) (hc0 : ¬cond0_0 i) (hc1 : ¬cond0_1 i) (x0 : Vec F S1x2048x128 .f32) (x1 : Vec F S1x512x128 .f32) (x2 : Vec F S1x512x128 .f32) (x3 : Vec F S1x2048x512 .f32) (xs0 : Vec F S2048x128 .f32) :
    sout0_B_0 c i arg2 harg2 arg3 harg3 arg4 harg4 arg5 harg5 arg6 harg6 arg7 harg7 hc0 hc1 x0 x1 x2 x3 xs0 = k0_pay2 x0 x1 x3 x2 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B; dsimp only; sl_unfold_words
  rw [View.canon_unit_zero (S := S2048x128) zero2]
  simp only [View.readAt_eq_ld, harg2.read_unread, harg3.read_unread, harg4.read_unread, harg5.read_unread, harg7.read_unread, View.ld_unit_zero (S := S1x2048x128) zero3, View.ld_unit_zero (S := S1x512x128) zero3, View.ld_unit_zero (S := S1x2048x512) zero3, View.ld_unit_zero (S := S2048x128) zero2]

/-- The last tile: the accumulator again ends at the update of what the tile before left, -/
theorem sout_C (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x2048x512 .f32) (harg5 : arg5.IsWhole) (arg6 : Memref sig .tc .vmem S1x2048x128 .f32) (harg6 : arg6.IsWhole) (arg7 : Memref sig .tc .vmem S2048x128 .f32) (harg7 : arg7.IsWhole) (hc0 : ¬cond0_0 i) (hc1 : cond0_1 i) (x0 : Vec F S1x2048x128 .f32) (x1 : Vec F S1x512x128 .f32) (x2 : Vec F S1x512x128 .f32) (x3 : Vec F S1x2048x512 .f32) (xs0 : Vec F S2048x128 .f32) :
    sout0_C_0 c i arg2 harg2 arg3 harg3 arg4 harg4 arg5 harg5 arg6 harg6 arg7 harg7 hc0 hc1 x0 x1 x2 x3 xs0 = k0_pay2 x0 x1 x3 x2 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C; dsimp only; sl_unfold_words
  rw [View.canon_unit_zero (S := S2048x128) zero2]
  simp only [View.readAt_eq_ld, harg2.read_unread, harg3.read_unread, harg4.read_unread, harg5.read_unread, harg7.read_unread, View.ld_unit_zero (S := S1x2048x128) zero3, View.ld_unit_zero (S := S1x512x128) zero3, View.ld_unit_zero (S := S1x2048x512) zero3, View.ld_unit_zero (S := S2048x128) zero2]

/-- and the output block is that updated accumulator with a leading unit axis. -/
theorem out_C (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x2048x512 .f32) (harg5 : arg5.IsWhole) (arg6 : Memref sig .tc .vmem S1x2048x128 .f32) (harg6 : arg6.IsWhole) (arg7 : Memref sig .tc .vmem S2048x128 .f32) (harg7 : arg7.IsWhole) (hc0 : ¬cond0_0 i) (hc1 : cond0_1 i) (x0 : Vec F S1x2048x128 .f32) (x1 : Vec F S1x512x128 .f32) (x2 : Vec F S1x512x128 .f32) (x3 : Vec F S1x2048x512 .f32) (xs0 : Vec F S2048x128 .f32) :
    out0_C_4 c i arg2 harg2 arg3 harg3 arg4 harg4 arg5 harg5 arg6 harg6 arg7 harg7 hc0 hc1 x0 x1 x2 x3 xs0 = k0_pay3 (k0_pay2 x0 x1 x3 x2 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C; dsimp only; sl_unfold_words
  rw [View.canon_unit_zero (S := S1x2048x128) zero3]
  simp only [View.readAt_eq_ld, harg2.read_unread, harg3.read_unread, harg4.read_unread, harg5.read_unread, harg7.read_unread, View.ld_unit_zero (S := S1x2048x128) zero3, View.ld_unit_zero (S := S1x512x128) zero3, View.ld_unit_zero (S := S1x2048x512) zero3, View.ld_unit_zero (S := S2048x128) zero2, View.readCov_unit_zero (S := S2048x128) _ zero2]

end Cert.KernelIdeal.Pieces

end
-- ==== Proof.Blocks.lean ====
/-
  Which entries of the argument arrays each staged block holds.

  The grid is 16 batches by 4 key tiles, walked batch by batch: point t works on batch t / 4 and key tile t mod 4.
  A block's entry sits in its array, on each axis, at the block index times the block's extent plus the entry's own
  coordinate. So the [1, 2048, 128] query block is batch t / 4 of q whole, the [1, 512, 128] key and value tiles are
  rows 512 (t mod 4) … 512 (t mod 4) + 511 of that batch of k and v, and the [1, 2048, 512] bias tile is the same
  range of COLUMNS of that batch of the bias.
-/
import proofs.«155042_j82987358094192_1_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- Where each window's block sits at grid point t = 4 b + j (b the batch, j the key tile): the query and output
    blocks at (b, 0, 0), the key and value tiles at (b, j, 0), the bias tile at (b, 0, j) — decided over the grid. -/
theorem idx_q : ∀ t : Fin cfg0.N, win0_0.index t 0 = t.val / 4 ∧ win0_0.index t 1 = 0 ∧ win0_0.index t 2 = 0 :=
  (by decide +kernel : ∀ t : Fin grid0.N, win0_0.index t 0 = t.val / 4 ∧ win0_0.index t 1 = 0 ∧ win0_0.index t 2 = 0)
theorem idx_k : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)
theorem idx_v : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)
theorem idx_b : ∀ t : Fin cfg0.N, win0_3.index t 0 = t.val / 4 ∧ win0_3.index t 1 = 0 ∧ win0_3.index t 2 = t.val % 4 :=
  (by decide +kernel : ∀ t : Fin grid0.N, win0_3.index t 0 = t.val / 4 ∧ win0_3.index t 1 = 0 ∧ win0_3.index t 2 = t.val % 4)
theorem idx_o : ∀ t : Fin cfg0.N, win0_4.index t 0 = t.val / 4 ∧ win0_4.index t 1 = 0 ∧ win0_4.index t 2 = 0 :=
  (by decide +kernel : ∀ t : Fin grid0.N, win0_4.index t 0 = t.val / 4 ∧ win0_4.index t 1 = 0 ∧ win0_4.index t 2 = 0)

/-- The four argument arrays as the region finds them, and the four staged blocks at a point, at their literal types. -/
abbrev qarr (c : Dev nD) : Vec F S16x2048x128 .f32 := V m c main_arg0
abbrev karr (c : Dev nD) : Vec F S16x2048x128 .f32 := V m c main_arg1
abbrev varr (c : Dev nD) : Vec F S16x2048x128 .f32 := V m c main_arg2
abbrev barr (c : Dev nD) : Vec F S16x2048x2048 .f32 := V m c main_arg3
abbrev qblk (c : Dev nD) (t : Fin cfg0.N) : Vec F S1x2048x128 .f32 := iblk m c 0 t
abbrev kblk (c : Dev nD) (t : Fin cfg0.N) : Vec F S1x512x128 .f32 := iblk m c 1 t
abbrev vblk (c : Dev nD) (t : Fin cfg0.N) : Vec F S1x512x128 .f32 := iblk m c 2 t
abbrev bblk (c : Dev nD) (t : Fin cfg0.N) : Vec F S1x2048x512 .f32 := iblk m c 3 t

/-- The grid has 64 points. -/
theorem lt64 (t : Fin cfg0.N) : t.val < 64 := lt_of_lt_of_eq t.isLt N_0

/-- Point t works on batch t / 4 -/
def batchOf (t : Fin cfg0.N) : Fin 16 := ⟨t.val / 4, by have h := lt64 t; omega⟩
/-- and on key tile t mod 4. -/
def tileOf (t : Fin cfg0.N) : Fin 4 := ⟨t.val % 4, Nat.mod_lt _ (by decide)⟩
/-- Row n' of key tile j is row 512 j + n' of the 2048 key rows. -/
def rowOf (t : Fin cfg0.N) (n' : Fin 512) : Fin 2048 := ⟨512 * (t.val % 4) + n'.val, by have := Nat.mod_lt t.val (show 0 < 4 by decide); omega⟩

/-- The query block at point t is batch t / 4 of q. -/
theorem qblk_apply (c : Dev nD) (t : Fin cfg0.N) (mm : Fin 2048) (kk : Fin 128) :
    qblk m c t (ix3 0 mm kk) = qarr m c (ix3 (batchOf t) mm kk) := by
  show iblk m c 0 t (ix3 0 mm kk) = V m c main_arg0 (ix3 (batchOf t) mm kk)
  unfold iblk
  rw [View.read_apply]
  show V m c main_arg0 _ = V m c main_arg0 _
  congr 1
  funext a
  apply Fin.ext
  match a with
  | ⟨0, _⟩ => show win0_0.index t 0 * 1 + 1 * 0 = t.val / 4; rw [(idx_q t).1]; omega
  | ⟨1, _⟩ => show win0_0.index t 1 * 2048 + 1 * mm.val = mm.val; rw [(idx_q t).2.1]; omega
  | ⟨2, _⟩ => show win0_0.index t 2 * 128 + 1 * kk.val = kk.val; rw [(idx_q t).2.2]; omega

/-- The key tile at point t is rows 512 (t mod 4) … of batch t / 4 of k. -/
theorem kblk_apply (c : Dev nD) (t : Fin cfg0.N) (n' : Fin 512) (kk : Fin 128) :
    kblk m c t (ix3 0 n' kk) = karr m c (ix3 (batchOf t) (rowOf t n') kk) := by
  show iblk m c 1 t (ix3 0 n' kk) = V m c main_arg1 (ix3 (batchOf t) (rowOf t n') kk)
  unfold iblk
  rw [View.read_apply]
  show V m c main_arg1 _ = V m c main_arg1 _
  congr 1
  funext a
  apply Fin.ext
  match a with
  | ⟨0, _⟩ => show win0_1.index t 0 * 1 + 1 * 0 = t.val / 4; rw [(idx_k t).1]; omega
  | ⟨1, _⟩ => show win0_1.index t 1 * 512 + 1 * n'.val = 512 * (t.val % 4) + n'.val; rw [(idx_k t).2.1]; omega
  | ⟨2, _⟩ => show win0_1.index t 2 * 128 + 1 * kk.val = kk.val; rw [(idx_k t).2.2]; omega

/-- The value tile at point t is the same rows of batch t / 4 of v. -/
theorem vblk_apply (c : Dev nD) (t : Fin cfg0.N) (n' : Fin 512) (d : Fin 128) :
    vblk m c t (ix3 0 n' d) = varr m c (ix3 (batchOf t) (rowOf t n') d) := by
  show iblk m c 2 t (ix3 0 n' d) = V m c main_arg2 (ix3 (batchOf t) (rowOf t n') d)
  unfold iblk
  rw [View.read_apply]
  show V m c main_arg2 _ = V m c main_arg2 _
  congr 1
  funext a
  apply Fin.ext
  match a with
  | ⟨0, _⟩ => show win0_2.index t 0 * 1 + 1 * 0 = t.val / 4; rw [(idx_v t).1]; omega
  | ⟨1, _⟩ => show win0_2.index t 1 * 512 + 1 * n'.val = 512 * (t.val % 4) + n'.val; rw [(idx_v t).2.1]; omega
  | ⟨2, _⟩ => show win0_2.index t 2 * 128 + 1 * d.val = d.val; rw [(idx_v t).2.2]; omega

/-- The bias tile at point t is columns 512 (t mod 4) … of batch t / 4 of the bias. -/
theorem bblk_apply (c : Dev nD) (t : Fin cfg0.N) (mm : Fin 2048) (n' : Fin 512) :
    bblk m c t (ix3 0 mm n') = barr m c (ix3 (batchOf t) mm (rowOf t n')) := by
  show iblk m c 3 t (ix3 0 mm n') = V m c main_arg3 (ix3 (batchOf t) mm (rowOf t n'))
  unfold iblk
  rw [View.read_apply]
  show V m c main_arg3 _ = V m c main_arg3 _
  congr 1
  funext a
  apply Fin.ext
  match a with
  | ⟨0, _⟩ => show win0_3.index t 0 * 1 + 1 * 0 = t.val / 4; rw [(idx_b t).1]; omega
  | ⟨1, _⟩ => show win0_3.index t 1 * 2048 + 1 * mm.val = mm.val; rw [(idx_b t).2.1]; omega
  | ⟨2, _⟩ => show win0_3.index t 2 * 512 + 1 * n'.val = 512 * (t.val % 4) + n'.val; rw [(idx_b t).2.2]; omega

end Cert.KernelIdeal.Blocks

end
-- ==== Proof.LibSumBlocks.lean ====
/-
  A sum over a range of a * b consecutive numbers, cut into a consecutive blocks of b numbers each: in any commutative
  monoid the whole sum is the sum over the blocks of each block's sum, whatever function names the member k of block j,
  as long as that member is the number b * j + k. For four blocks the outer sum is written out as a chain of additions
  from the left, which is the order in which an accumulator that is updated once per block builds it.
-/
import Mathlib.Algebra.BigOperators.Fin
import Mathlib.Algebra.BigOperators.Group.Finset.Sigma
import Mathlib.Logic.Equiv.Fin.Basic

namespace Cert.LibSumBlocks

variable {M : Type*} [AddCommMonoid M]

/-- THE CUT: the sum over all n = a * b numbers is the double sum over block j and place k of the value at b * j + k. -/
theorem sum_blocks {a b n : ℕ} (hn : a * b = n) (f : Fin n → M) (g : Fin a → Fin b → Fin n)
    (hg : ∀ j k, (g j k).val = b * j.val + k.val) :
    ∑ k, f k = ∑ j, ∑ k', f (g j k') := by
  subst hn
  rw [← Fintype.sum_prod_type']
  refine (Fintype.sum_equiv finProdFinEquiv _ _ fun x => ?_).symm
  refine congrArg f (Fin.ext ?_)
  rw [hg, finProdFinEquiv_apply_val, Nat.add_comm]

/-- Four blocks, accumulated from the left starting at zero. -/
theorem sum_four_blocks {b n : ℕ} (hn : 4 * b = n) (f : Fin n → M) (g : Fin 4 → Fin b → Fin n)
    (hg : ∀ j k, (g j k).val = b * j.val + k.val) :
    ((((0 : M) + ∑ k, f (g 0 k)) + ∑ k, f (g 1 k)) + ∑ k, f (g 2 k)) + ∑ k, f (g 3 k) = ∑ k, f k := by
  rw [sum_blocks hn f g hg, Fin.sum_univ_four, zero_add]

end Cert.LibSumBlocks
-- ==== Proof.Spec.lean ====
/-
  Sigmoid attention with an additive bias, written as ONE function of the four argument arrays.

  For batch b, query row m, key row n and feature d the arrays are q (b, m, ·), k (b, n, ·), v (b, n, ·) and
  bias (b, m, n). The weight of key n for query m is the logistic function of the scaled inner product of the
  two rows plus the bias entry, and the result at (b, m, d) is the sum over ALL 2048 keys of weight times value.
  The same number is reached by cutting the keys into four consecutive tiles of 512 and adding the tiles' partial
  sums one after the other onto zero: over the extended reals addition is commutative and associative with no
  side condition, so the regrouping needs no finiteness of the inputs.
-/
import Idealize.ShloMosaic.Lib.ValueIdx
import Idealize.ShloMosaic.PureOps.Ideal
import proofs.«155042_j82987358094192_1_alg».proof.Proof.LibSumBlocks

noncomputable section

namespace Cert.Attn

open Idealize.ShloMosaic Idealize.ShloMosaic.ValueIdx

/-- The shape of q, k, v and of the result: 16 batches, 2048 rows, 128 features. -/
abbrev SQ : Shape := ⟨3, ![16, 2048, 128]⟩
/-- The shape of the bias: 16 batches, 2048 query rows, 2048 key rows. -/
abbrev SB : Shape := ⟨3, ![16, 2048, 2048]⟩

/-- The scale both programs multiply the inner product by: the same single-precision pattern on both sides, so its
    value is never needed. -/
abbrev scale : EReal := Ideal.ofBits .f32 0x3DB504F3#32

/-- The weight of key row n for query row m in batch b. -/
def weight (q k : SQ.Idx → EReal) (bias : SB.Idx → EReal) (b : Fin 16) (m n : Fin 2048) : EReal :=
  Ideal.logistic (scale * (∑ kk : Fin 128, q (ix3 b m kk) * k (ix3 b n kk)) + bias (ix3 b m n))

/-- The result at batch b, query row m, feature d: the weighted sum of the values over all keys. -/
def attnAt (q k v : SQ.Idx → EReal) (bias : SB.Idx → EReal) (b : Fin 16) (m : Fin 2048) (d : Fin 128) : EReal :=
  ∑ n : Fin 2048, weight q k bias b m n * v (ix3 b n d)

/-- The whole result array. -/
def attn (q k v : SQ.Idx → EReal) (bias : SB.Idx → EReal) : SQ.Idx → EReal :=
  fun i => attnAt q k v bias (i 0) (i 1) (i 2)

/-- Key row number n' of tile j is row 512 j + n' of the array. -/
def keyOf (j : Fin 4) (n' : Fin 512) : Fin 2048 := ⟨512 * j.val + n'.val, by omega⟩

theorem keyOf_val (j : Fin 4) (n' : Fin 512) : (keyOf j n').val = 512 * j.val + n'.val := rfl

/-- One tile's share of the result: the weighted sum over the tile's 512 keys. -/
def tile (q k v : SQ.Idx → EReal) (bias : SB.Idx → EReal) (b : Fin 16) (j : Fin 4) (m : Fin 2048) (d : Fin 128) : EReal :=
  ∑ n' : Fin 512, weight q k bias b m (keyOf j n') * v (ix3 b (keyOf j n') d)

/-- Adding the four tiles' shares onto zero, first to last, gives the sum over all keys. -/
theorem tiles_eq_attnAt (q k v : SQ.Idx → EReal) (bias : SB.Idx → EReal) (b : Fin 16) (m : Fin 2048) (d : Fin 128) :
    ((((0 : EReal) + tile q k v bias b 0 m d) + tile q k v bias b 1 m d) + tile q k v bias b 2 m d)
      + tile q k v bias b 3 m d = attnAt q k v bias b m d :=
  Cert.LibSumBlocks.sum_four_blocks (b := 512) (n := 2048) rfl
    (fun n => weight q k bias b m n * v (ix3 b n d)) keyOf keyOf_val

/-- The single-precision pattern of one denotes the number one. -/
theorem ofBits_one : Ideal.ofBits .f32 0x3F800000#32 = 1 := by
  simp [Ideal.ofBits, Ideal.ieee, -EReal.coe_mul]; norm_num

end Cert.Attn

end
-- ==== Proof.LibMatmulNT.lean ====
/-
  A matrix product that contracts the LAST axis of both operands, read at an index. For dimension numbers that contract
  axis 1 of an [M, K] left operand with axis 1 of an [N, K] right operand (no batch axes) — the left operand times the
  transpose of the right one — a matrix-unit product into the zero accumulator, over the extended reals, has at (p, q)
  the sum over k of left (p, k) times right (q, k): row p of the left operand against row q of the right operand.
-/
import Idealize.ShloMosaic.Lib.ValueIdx
import Idealize.ShloMosaic.PureOps.Ideal.Laws

noncomputable section

namespace Cert.LibMatmulNT

open Idealize.ShloMosaic Idealize.ShloMosaic.ValueIdx

variable {M K N : Nat}

/-- The dimension numbers of a product contracting both operands' axis 1, as a record over its well-formedness evidence. -/
abbrev ntDims (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ := ⟨[1], [1], [0], [0], [], [], wf⟩

variable (wf : DotDims.WF (⟨2, ![M, K]⟩ : Shape) ⟨2, ![N, K]⟩ ⟨2, ![M, N]⟩ [1] [1] [0] [0] [] [])

/-- The left operand's row axis reads the result's row coordinate. -/
theorem lhs_axis0 (j : (⟨2, ![M, N]⟩ : Shape).Idx) (q : (ntDims wf).contr.Idx) :
    ((ntDims wf).lhsIdx j q 0).val = (j 0).val := by
  unfold DotDims.lhsIdx
  rw [dif_neg (show ¬(0 : Fin (⟨2, ![M, K]⟩ : Shape).rank) ∈ (ntDims wf).lhsBatch from List.not_mem_nil),
    dif_pos (show (0 : Fin (⟨2, ![M, K]⟩ : Shape).rank) ∈ (ntDims wf).lhsNonContracting from List.mem_singleton.mpr rfl)]
  rfl
/-- The left operand's contracted axis reads the contraction coordinate. -/
theorem lhs_axis1 (j : (⟨2, ![M, N]⟩ : Shape).Idx) (q : (ntDims wf).contr.Idx) :
    ((ntDims wf).lhsIdx j q 1).val = (q ⟨0, Nat.one_pos⟩).val :=
  (ntDims wf).lhsIdx_val_of_single rfl j q
/-- The right operand's row axis reads the result's COLUMN coordinate: the right operand enters transposed. -/
theorem rhs_axis0 (j : (⟨2, ![M, N]⟩ : Shape).Idx) (q : (ntDims wf).contr.Idx) :
    ((ntDims wf).rhsIdx j q 0).val = (j 1).val := by
  unfold DotDims.rhsIdx
  rw [dif_neg (show ¬(0 : Fin (⟨2, ![N, K]⟩ : Shape).rank) ∈ (ntDims wf).rhsBatch from List.not_mem_nil),
    dif_pos (show (0 : Fin (⟨2, ![N, K]⟩ : Shape).rank) ∈ (ntDims wf).rhsNonContracting from List.mem_singleton.mpr rfl)]
  rfl
/-- The right operand's contracted axis reads the contraction coordinate. -/
theorem rhs_axis1 (j : (⟨2, ![M, N]⟩ : Shape).Idx) (q : (ntDims wf).contr.Idx) :
    ((ntDims wf).rhsIdx j q 1).val = (q ⟨0, Nat.one_pos⟩).val :=
  (ntDims wf).rhsIdx_val_of_single rfl j q

/-- THE PRODUCT AT (p, q), into the zero accumulator: the sum over the shared last coordinate. -/
theorem matmul_zero_nt_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (ntDims wf) prec lhs rhs (constant ⟨2, ![M, N]⟩ .f32 0x00000000#32) (ix2 p q)
      = ∑ k : Fin K, lhs (ix2 p k) * rhs (ix2 q k) := by
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k := funext fun a => Fin.ext (by
    match a with
    | ⟨0, _⟩ => exact lhs_axis0 wf _ _
    | ⟨1, _⟩ => exact (lhs_axis1 wf _ _).trans hk)
  have er : (ntDims wf).rhsIdx (ix2 p q) ((contrEquiv1 (ntDims wf) K rfl rfl).symm k) = ix2 q k := funext fun a => Fin.ext (by
    match a with
    | ⟨0, _⟩ => exact rhs_axis0 wf _ _
    | ⟨1, _⟩ => exact (rhs_axis1 wf _ _).trans hk)
  rw [el, er]

end Cert.LibMatmulNT

end
-- ==== Proof.LibMatmulPlain.lean ====
/-
  A plain matrix product read at an index. For dimension numbers that contract axis 1 of an [M, K] left operand with
  axis 0 of a [K, N] right operand (no batch axes), a `tpu.matmul` into the zero accumulator, over the extended reals,
  has at (p, q) the sum over k of left (p, k) times right (k, q).
-/
import Idealize.ShloMosaic.Lib.ValueIdx
import Idealize.ShloMosaic.PureOps.Ideal.Laws

noncomputable section

namespace Cert.LibMatmulPlain

open Idealize.ShloMosaic Idealize.ShloMosaic.ValueIdx

variable {M K N : Nat}

/-- The dimension numbers of a plain product, as a record over its well-formedness evidence. -/
abbrev plainDims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ := ⟨[1], [0], [0], [1], [], [], wf⟩

variable (wf : DotDims.WF (⟨2, ![M, K]⟩ : Shape) ⟨2, ![K, N]⟩ ⟨2, ![M, N]⟩ [1] [0] [0] [1] [] [])

theorem lhs_axis0 (j : (⟨2, ![M, N]⟩ : Shape).Idx) (q : (plainDims wf).contr.Idx) :
    ((plainDims wf).lhsIdx j q 0).val = (j 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl
theorem lhs_axis1 (j : (⟨2, ![M, N]⟩ : Shape).Idx) (q : (plainDims wf).contr.Idx) :
    ((plainDims wf).lhsIdx j q 1).val = (q ⟨0, Nat.one_pos⟩).val :=
  (plainDims wf).lhsIdx_val_of_single rfl j q
theorem rhs_axis0 (j : (⟨2, ![M, N]⟩ : Shape).Idx) (q : (plainDims wf).contr.Idx) :
    ((plainDims wf).rhsIdx j q 0).val = (q ⟨0, Nat.one_pos⟩).val :=
  (plainDims wf).rhsIdx_val_of_single rfl j q
theorem rhs_axis1 (j : (⟨2, ![M, N]⟩ : Shape).Idx) (q : (plainDims wf).contr.Idx) :
    ((plainDims wf).rhsIdx j q 1).val = (j 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

/-- THE PRODUCT AT (p, q), into the zero accumulator: the sum over the contracted coordinate. -/
theorem matmul_zero_plain_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (plainDims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k := funext fun a => Fin.ext (by
    match a with
    | ⟨0, _⟩ => exact lhs_axis0 wf _ _
    | ⟨1, _⟩ => exact (lhs_axis1 wf _ _).trans hk)
  have er : (plainDims wf).rhsIdx (ix2 p q) ((contrEquiv1 (plainDims wf) K rfl rfl).symm k) = ix2 k q := funext fun a => Fin.ext (by
    match a with
    | ⟨0, _⟩ => exact (rhs_axis0 wf _ _).trans hk
    | ⟨1, _⟩ => exact rhs_axis1 wf _ _)
  rw [el, er]

end Cert.LibMatmulPlain

end
-- ==== Proof.TileStep.lean ====
/-
  What one grid point's arithmetic does, read at an index.
-/
import proofs.«155042_j82987358094192_1_alg».proof.Proof.Gen.KernelIdeal.Skeleton
import proofs.«155042_j82987358094192_1_alg».proof.Proof.Spec
import proofs.«155042_j82987358094192_1_alg».proof.Proof.LibMatmulNT
import proofs.«155042_j82987358094192_1_alg».proof.Proof.LibMatmulPlain
import Idealize.ShloMosaic.Lib.Pipeline.Value
import Idealize.ShloMosaic.Lib.ValueLayout

noncomputable section

namespace Cert.KernelIdeal.Step

open Idealize.ShloMosaic Idealize.ShloMosaic.ValueIdx Cert.KernelIdeal Cert.KernelIdeal.Gen

/-- A block with a leading unit axis, viewed without it and narrowed to the shorter format, reads at (p, q) the block's
    entry (0, p, q): the view only renames the index and the narrowing is the identity over the extended reals. -/
private theorem drop_narrow_apply {a b : Nat} (x : Vec Ideal ⟨3, ![1, a, b]⟩ .f32)
    (h : (⟨3, ![1, a, b]⟩ : Shape).ShapeCasts ⟨2, ![a, b]⟩) (hb : FTy.bits .bf16 < FTy.bits .f32) (p : Fin a) (q : Fin b) :
    (truncf .bf16 (shapeCast ⟨2, ![a, b]⟩ x h) hb : FVec Ideal ⟨2, ![a, b]⟩ .bf16) (ix2 p q) = x (ix3 (0 : Fin 1) p q) :=
  shapeCast_1ab_ab_apply x h p q

/-- The score of query row m against key row n' of the tile: the inner product of the two rows over the 128 features. -/
private theorem score_apply (q : Vec Ideal S1x2048x128 .f32) (k : Vec Ideal S1x512x128 .f32)
    (hq : S1x2048x128.ShapeCasts S2048x128) (hk : S1x512x128.ShapeCasts S512x128) (hb : FTy.bits .bf16 < FTy.bits .f32)
    (m : Fin 2048) (n' : Fin 512) :
    matmul dot_S2048x128_S512x128_S2048x512_1_1_0_0_n_n none
        (truncf .bf16 (shapeCast S2048x128 q hq) hb : FVec Ideal S2048x128 .bf16)
        (truncf .bf16 (shapeCast S512x128 k hk) hb : FVec Ideal S512x128 .bf16)
        (constant S2048x512 .f32 0x00000000#32) (ix2 m n')
      = ∑ kk : Fin 128, q (ix3 0 m kk) * k (ix3 0 n' kk) :=
  (Cert.LibMatmulNT.matmul_zero_nt_apply (M := 2048) (K := 128) (N := 512)
      (wf := Facts₀.dot_S2048x128_S512x128_S2048x512_1_1_0_0_n_n_wf) none
      (truncf .bf16 (shapeCast S2048x128 q hq) hb : FVec Ideal S2048x128 .bf16)
      (truncf .bf16 (shapeCast S512x128 k hk) hb : FVec Ideal S512x128 .bf16) m n').trans
    (Finset.sum_congr rfl fun kk _ =>
      congrArg₂ (· * ·) (drop_narrow_apply q hq hb m kk) (drop_narrow_apply k hk hb n' kk))

/-- The weight of key row n' for query row m: the logistic function of the scaled score plus the bias entry. The
    multiplication by the pattern of one changes nothing, and neither does the narrowing. -/
private theorem weight_apply (s : FVec Ideal S2048x512 .f32) (bias : Vec Ideal S1x2048x512 .f32)
    (hbias : S1x2048x512.ShapeCasts S2048x512) (hb : FTy.bits .bf16 < FTy.bits .f32) (m : Fin 2048) (n' : Fin 512) :
    (truncf .bf16
        (mulf (logistic (addf (mulf (broadcast S2048x512 (Scalar.ofBits (F := Ideal) .f32 0x3DB504F3#32)) s)
            (shapeCast S2048x512 bias hbias)))
          (broadcast S2048x512 (Scalar.ofBits (F := Ideal) .f32 0x3F800000#32))) hb : FVec Ideal S2048x512 .bf16) (ix2 m n')
      = Ideal.logistic (Cert.Attn.scale * s (ix2 m n') + bias (ix3 0 m n')) := by
  show Ideal.logistic (Ideal.ofBits .f32 0x3DB504F3#32 * s (ix2 m n') + shapeCast S2048x512 bias hbias (ix2 m n'))
      * Ideal.ofBits .f32 0x3F800000#32 = _
  rw [Cert.Attn.ofBits_one, mul_one]
  exact congrArg (fun t => Ideal.logistic (Cert.Attn.scale * s (ix2 m n') + t)) (shapeCast_1ab_ab_apply bias hbias m n')

/-- The tile's weighted sum of values at (m, d): the product of the 2048×512 weights with the 512×128 value tile. -/
private theorem weighted_sum_apply (w : FVec Ideal S2048x512 .bf16) (v : Vec Ideal S1x512x128 .f32)
    (hv : S1x512x128.ShapeCasts S512x128) (hb : FTy.bits .bf16 < FTy.bits .f32) (m : Fin 2048) (d : Fin 128) :
    matmul dot_S2048x512_S512x128_S2048x128_1_0_0_1_n_n none w
        (truncf .bf16 (shapeCast S512x128 v hv) hb : FVec Ideal S512x128 .bf16)
        (constant S2048x128 .f32 0x00000000#32) (ix2 m d)
      = ∑ n' : Fin 512, w (ix2 m n') * v (ix3 0 n' d) :=
  (Cert.LibMatmulPlain.matmul_zero_plain_apply (M := 2048) (K := 512) (N := 128)
      (wf := Facts₀.dot_S2048x512_S512x128_S2048x128_1_0_0_1_n_n_wf) none w
      (truncf .bf16 (shapeCast S512x128 v hv) hb : FVec Ideal S512x128 .bf16) m d).trans
    (Finset.sum_congr rfl fun n' _ => congrArg (w (ix2 m n') * ·) (drop_narrow_apply v hv hb n' d))

/-- The value stored at a row's first tile before anything is added: zero everywhere. -/
theorem pay1_apply (i : S2048x128.Idx) : (k0_pay1 (F := Ideal)) i = 0 := by
  unfold k0_pay1
  refine (congrFun (shapeCast_self _ _) i).trans ?_
  exact Ideal.ofBits_zero_f32

/-- The accumulator update at (m, d): what the accumulator held plus the tile's weighted sum of values, in terms of
    the four staged blocks (x0 the query block, x1 the key tile, x3 the bias tile, x2 the value tile). -/
theorem pay2_apply (x0 : Vec Ideal S1x2048x128 .f32) (x1 : Vec Ideal S1x512x128 .f32) (x3 : Vec Ideal S1x2048x512 .f32)
    (x2 : Vec Ideal S1x512x128 .f32) (acc : Vec Ideal S2048x128 .f32) (m : Fin 2048) (d : Fin 128) :
    k0_pay2 (F := Ideal) x0 x1 x3 x2 acc (ix2 m d)
      = acc (ix2 m d) + ∑ n' : Fin 512,
          Ideal.logistic (Cert.Attn.scale * (∑ kk : Fin 128, x0 (ix3 0 m kk) * x1 (ix3 0 n' kk)) + x3 (ix3 0 m n'))
            * x2 (ix3 0 n' d) := by
  unfold k0_pay2
  refine (congrFun (shapeCast_self _ _) (ix2 m d)).trans ?_
  refine congrArg (acc (ix2 m d) + ·) ?_
  refine (weighted_sum_apply _ x2 _ _ m d).trans ?_
  refine Finset.sum_congr rfl fun n' _ => congrArg (· * x2 (ix3 0 n' d)) ?_
  refine (weight_apply _ x3 _ _ m n').trans ?_
  exact congrArg (fun t => Ideal.logistic (Cert.Attn.scale * t + x3 (ix3 0 m n'))) (score_apply x0 x1 _ _ _ m n')

/-- The output block is the accumulator with a leading unit axis. -/
theorem pay3_apply (acc : Vec Ideal S2048x128 .f32) (m : Fin 2048) (d : Fin 128) :
    k0_pay3 (F := Ideal) acc (ix3 0 m d) = acc (ix2 m d) := by
  unfold k0_pay3
  exact shapeCast_ab_1ab_apply acc _ 0 m d

end Cert.KernelIdeal.Step

end
-- ==== Proof.Accum.lean ====
/-
  The accumulator across a batch's four key tiles.

  Within a batch b the points 4 b, 4 b + 1, 4 b + 2, 4 b + 3 work on key tiles 0 … 3. The first stores zero and adds
  tile 0's share of the result; each later point adds its own tile's share to what the point before left. So after
  point 4 b + j the accumulator holds, at (m, d), zero plus the shares of tiles 0 … j, and after the batch's last
  point the sum over ALL 2048 keys of weight times value: the attention result for batch b. A tile's share is the
  body's arithmetic of the four staged blocks, which are the corresponding rows and columns of the argument arrays.
-/
import proofs.«155042_j82987358094192_1_alg».proof.Proof.Gen.KernelIdeal.Value
import proofs.«155042_j82987358094192_1_alg».proof.Proof.Pieces
import proofs.«155042_j82987358094192_1_alg».proof.Proof.Blocks
import proofs.«155042_j82987358094192_1_alg».proof.Proof.TileStep
import proofs.«155042_j82987358094192_1_alg».proof.Proof.Spec

noncomputable section

namespace Cert.KernelIdeal.Accum

open Idealize.ShloMosaic Idealize.ShloMosaic.TcCoe Idealize.ShloMosaic.ValueIdx
open Idealize.SL Idealize.SL.Sem
open Cert.KernelIdeal Cert.KernelIdeal.Gen Cert.KernelIdeal.Value Cert.KernelIdeal.Blocks

variable (m : (ℓ : Loc nD τ sig) → Buf (Elt Ideal) ℓ)

/-- The share of the result that point n adds at an index of the accumulator: its key tile's weighted sum of values for
    its batch (zero for a number past the grid, which nothing reads). -/
def addend (c : Dev nD) (n : ℕ) (i : S2048x128.Idx) : EReal :=
  if h : n < cfg0.N then
    Cert.Attn.tile (qarr m c) (karr m c) (varr m c) (barr m c) (batchOf ⟨n, h⟩) (tileOf ⟨n, h⟩) (i 0) (i 1)
  else 0

/-- The body's arithmetic of the staged blocks at point t IS that share: the blocks are the batch's rows of q, the
    tile's rows of k and v and the tile's columns of the bias. -/
theorem tile_at (c : Dev nD) (t : Fin cfg0.N) (mm : Fin 2048) (d : Fin 128) :
    (∑ n' : Fin 512,
        Ideal.logistic (Cert.Attn.scale * (∑ kk : Fin 128, qblk m c t (ix3 0 mm kk) * kblk m c t (ix3 0 n' kk))
          + bblk m c t (ix3 0 mm n')) * vblk m c t (ix3 0 n' d))
      = addend m c t.val (ix2 mm d) := by
  unfold addend
  rw [dif_pos t.isLt]
  unfold Cert.Attn.tile Cert.Attn.weight
  refine Finset.sum_congr rfl fun n' _ => ?_
  rw [bblk_apply, vblk_apply]
  refine congrArg (fun s => Ideal.logistic (Cert.Attn.scale * s + barr m c (ix3 (batchOf t) mm (rowOf t n')))
    * varr m c (ix3 (batchOf t) (rowOf t n') d)) ?_
  refine Finset.sum_congr rfl fun kk _ => ?_
  rw [qblk_apply, kblk_apply]
  rfl

/-- What point n leaves in the accumulator over what the point before left: at a batch's first point zero plus its
    share, elsewhere what was there plus its share. -/
theorem step_apply (c : Dev nD) (n : ℕ) (h : n < cfg0.N) (acc : Vec Ideal S2048x128 .f32) (mm : Fin 2048) (d : Fin 128) :
    scAt0_0 m c n h acc (ix2 mm d) = (if n % 4 = 0 then 0 else acc (ix2 mm d)) + addend m c n (ix2 mm d) := by
  have hN : n < 64 := lt_of_lt_of_eq h N_0
  unfold scAt0_0
  by_cases h0 : n % 4 = 0
  · have h1 : ¬n % 4 = 3 := by omega
    rw [dif_pos h0, dif_neg h1, if_pos h0]
    refine (congrFun (Pieces.sout_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) _ _ (qblk m c ⟨n, h⟩) (kblk m c ⟨n, h⟩) (vblk m c ⟨n, h⟩) (bblk m c ⟨n, h⟩)) (ix2 mm d)).trans ?_
    refine (Step.pay2_apply (qblk m c ⟨n, h⟩) (kblk m c ⟨n, h⟩) (bblk m c ⟨n, h⟩) (vblk m c ⟨n, h⟩) (k0_pay1 (F := Ideal)) mm d).trans ?_
    rw [Step.pay1_apply]
    exact congrArg (0 + ·) (tile_at m c ⟨n, h⟩ mm d)
  · rw [dif_neg h0, if_neg h0]
    by_cases h1 : n % 4 = 3
    · rw [dif_pos h1]
      refine (congrFun (Pieces.sout_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) _ _ (qblk m c ⟨n, h⟩) (kblk m c ⟨n, h⟩) (vblk m c ⟨n, h⟩) (bblk m c ⟨n, h⟩) acc) (ix2 mm d)).trans ?_
      refine (Step.pay2_apply (qblk m c ⟨n, h⟩) (kblk m c ⟨n, h⟩) (bblk m c ⟨n, h⟩) (vblk m c ⟨n, h⟩) acc mm d).trans ?_
      exact congrArg (acc (ix2 mm d) + ·) (tile_at m c ⟨n, h⟩ mm d)
    · rw [dif_neg h1]
      refine (congrFun (Pieces.sout_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) _ _ (qblk m c ⟨n, h⟩) (kblk m c ⟨n, h⟩) (vblk m c ⟨n, h⟩) (bblk m c ⟨n, h⟩) acc) (ix2 mm d)).trans ?_
      refine (Step.pay2_apply (qblk m c ⟨n, h⟩) (kblk m c ⟨n, h⟩) (bblk m c ⟨n, h⟩) (vblk m c ⟨n, h⟩) acc mm d).trans ?_
      exact congrArg (acc (ix2 mm d) + ·) (tile_at m c ⟨n, h⟩ mm d)

/-- After point t the accumulator holds zero plus the shares of its batch's points up to t. -/
theorem acc_fold (c : Dev nD) (t : Fin cfg0.N) (mm : Fin 2048) (d : Fin 128) :
    (outsAt0 m c t.val t.isLt).2 (ix2 mm d)
      = 0 + ∑ s ∈ Finset.range (t.val % 4 + 1), addend m c (4 * (t.val / 4) + s) (ix2 mm d) := by
  refine (congrFun (soutsAt0_0_eq m c t) (ix2 mm d)).trans ?_
  refine Pipeline.accAt_add_apply (fun n h => scAt0_0 m c n h (VS0_0.read (Elt Ideal) VS0_0.junk)) (scAt0_0 m c)
    (fun _ => (0 : EReal)) (addend m c) (4 * (t.val / 4)) 3 ?_ ?_ (t.val % 4) (by omega) _ (ix2 mm d)
  · intro h i
    obtain ⟨p, q, rfl⟩ : ∃ (p : Fin 2048) (q : Fin 128), i = ix2 p q := ⟨i 0, i 1, eq_ix2 i⟩
    rw [step_apply m c _ h _ p q, if_pos (by omega)]
  · intro n h acc i hlo hhi
    obtain ⟨p, q, rfl⟩ : ∃ (p : Fin 2048) (q : Fin 128), i = ix2 p q := ⟨i 0, i 1, eq_ix2 i⟩
    rw [step_apply m c n h acc p q, if_neg (by omega)]

/-- The share of the point 4 b + j is tile j's share for batch b. -/
theorem addend_eq (c : Dev nD) (b : Fin 16) (j : Fin 4) (mm : Fin 2048) (d : Fin 128) :
    addend m c (4 * b.val + j.val) (ix2 mm d)
      = Cert.Attn.tile (qarr m c) (karr m c) (varr m c) (barr m c) b j mm d := by
  have hlt : 4 * b.val + j.val < cfg0.N := by rw [show cfg0.N = 64 from N_0]; omega
  unfold addend
  rw [dif_pos hlt]
  have eb : batchOf ⟨4 * b.val + j.val, hlt⟩ = b := Fin.ext (by show (4 * b.val + j.val) / 4 = b.val; omega)
  have ej : tileOf ⟨4 * b.val + j.val, hlt⟩ = j := Fin.ext (by show (4 * b.val + j.val) % 4 = j.val; omega)
  rw [eb, ej]

/-- After a batch's last point the accumulator holds the attention result for the batch. -/
theorem acc_last (c : Dev nD) (t : Fin cfg0.N) (h3 : t.val % 4 = 3) (mm : Fin 2048) (d : Fin 128) :
    (outsAt0 m c t.val t.isLt).2 (ix2 mm d)
      = Cert.Attn.attnAt (qarr m c) (karr m c) (varr m c) (barr m c) (batchOf t) mm d := by
  rw [acc_fold m c t mm d, h3, ← Cert.Attn.tiles_eq_attnAt]
  refine (zero_add _).trans ?_
  simp only [Finset.sum_range_succ, Finset.sum_range_zero]
  have e : ∀ j : Fin 4, addend m c (4 * (t.val / 4) + j.val) (ix2 mm d)
      = Cert.Attn.tile (qarr m c) (karr m c) (varr m c) (barr m c) (batchOf t) j mm d :=
    fun j => addend_eq m c (batchOf t) j mm d
  have e0 := e 0; have e1 := e 1; have e2 := e 2; have e3 := e 3
  rw [show ((0 : Fin 4) : ℕ) = 0 from rfl] at e0
  rw [show ((1 : Fin 4) : ℕ) = 1 from rfl] at e1
  rw [show ((2 : Fin 4) : ℕ) = 2 from rfl] at e2
  rw [show ((3 : Fin 4) : ℕ) = 3 from rfl] at e3
  rw [e0, e1, e2, e3]

end Cert.KernelIdeal.Accum

end
-- ==== Proof.Final.lean ====
/-
  The result array after the run is the attention function of the argument arrays.

  The output block for batch b is written back once, after the batch's last key tile (the points t with t mod 4 = 3),
  and at that point it holds the accumulator with a leading unit axis, that is the attention result for batch
  b = t / 4. That block is batch b of the [16, 2048, 128] result array whole, so the sixteen write-backs tile the
  array, and the array ends holding the attention function of q, k, v and the bias everywhere.
-/
import proofs.«155042_j82987358094192_1_alg».proof.Proof.Accum

noncomputable section

namespace Cert.KernelIdeal.Final

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Value Cert.KernelIdeal.Blocks Cert.KernelIdeal.Accum

variable (m : (ℓ : Loc nD τ sig) → Buf (Elt Ideal) ℓ) (ρ : Dev nD → PrngReg)

/-- The attention function of the four argument arrays as the region finds them. -/
abbrev result (c : Dev nD) : Vec Ideal S16x2048x128 .f32 :=
  Cert.Attn.attn (qarr m c) (karr m c) (varr m c) (barr m c)

/-- At a batch's last point the output block is the accumulator with a leading unit axis. -/
theorem out_last (c : Dev nD) (t : Fin cfg0.N) (h0 : ¬t.val % 4 = 0) (h3 : t.val % 4 = 3) (mm : Fin 2048) (d : Fin 128) :
    (outsAt0 m c t.val t.isLt).1 (ix3 0 mm d) = (outsAt0 m c t.val t.isLt).2 (ix2 mm d) := by
  rw [outsAt0_C m c t h0 h3]
  dsimp only
  refine (congrFun (Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (qblk m c t) (kblk m c t) (vblk m c t) (bblk m c t) (outsAt0 m c (t.val - 1) (Nat.lt_of_le_of_lt (Nat.sub_le _ _) t.isLt)).2) (ix3 0 mm d)).trans ?_
  refine (Step.pay3_apply _ mm d).trans ?_
  exact (congrFun (Pieces.sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (qblk m c t) (kblk m c t) (vblk m c t) (bblk m c t) (outsAt0 m c (t.val - 1) (Nat.lt_of_le_of_lt (Nat.sub_le _ _) t.isLt)).2) (ix2 mm d)).symm

/-- Entry (0, mm, d) of the output block at point t is entry (t / 4, mm, d) of the result array. -/
theorem oblk_emb (t : Fin cfg0.N) (mm : Fin 2048) (d : Fin 128) :
    ((cfg0.win 4).blk t).view.emb (ix3 (0 : Fin 1) mm d) = ix3 (batchOf t) mm d := by
  funext a
  apply Fin.ext
  match a with
  | ⟨0, _⟩ => show win0_4.index t 0 * 1 + 1 * 0 = t.val / 4; rw [(idx_o t).1]; omega
  | ⟨1, _⟩ => show win0_4.index t 1 * 2048 + 1 * mm.val = mm.val; rw [(idx_o t).2.1]; omega
  | ⟨2, _⟩ => show win0_4.index t 2 * 128 + 1 * d.val = d.val; rw [(idx_o t).2.2]; omega

/-- What a write-back writes is its block of the attention result. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  have h0 : ¬t.val % 4 = 0 := by omega
  rw [flushed4]
  funext y
  obtain ⟨z, mm, d, rfl⟩ : ∃ (z : Fin 1) (mm : Fin 2048) (d : Fin 128), y = ix3 z mm d := ⟨y 0, y 1, y 2, eq_ix3 y⟩
  obtain rfl : z = 0 := Subsingleton.elim _ _
  show (outsAt0 m c t.val t.isLt).1 (ix3 0 mm d) = result m c (((cfg0.win 4).blk t).view.emb (ix3 (0 : Fin 1) mm d))
  rw [oblk_emb, out_last m c t h0 h3 mm d, acc_last m c t h3 mm d]
  rfl

/-- An index of the result array is in point t's output block iff each coordinate is in the block's range. -/
theorem mem_oblk (t : Fin cfg0.N) (i : S16x2048x128.Idx) :
    i ∈ ((cfg0.win 4).blk t).view.set ↔ ∀ a : Fin 3, win0_4.index t a * S1x2048x128.size a ≤ (i a).val ∧ (i a).val < win0_4.index t a * S1x2048x128.size a + S1x2048x128.size a := by
  show i ∈ ((View.whole main_v0).slice (win0_4.rect t)).set ↔ _
  rw [View.set_slice_whole, Rect.mem_set_unit]
  exact Iff.rfl

/-- Every index of the result array is written back: index (b, ·, ·) at the last point of batch b. -/
theorem cover (i : S16x2048x128.Idx) :
    ∃ t : Fin cfg0.N, (cfg0.win 4).flush t = true ∧ i ∈ ((cfg0.win 4).blk t).view.set := by
  have hb : (i 0).val < 16 := (i 0).isLt
  have hm : (i 1).val < 2048 := (i 1).isLt
  have hd : (i 2).val < 128 := (i 2).isLt
  have hlt : 4 * (i 0).val + 3 < cfg0.N := by rw [show cfg0.N = 64 from N_0]; omega
  refine ⟨⟨4 * (i 0).val + 3, hlt⟩, (flush0_4 _).mpr (by show (4 * (i 0).val + 3) % 4 = 3; omega), ?_⟩
  rw [mem_oblk]
  obtain ⟨e0, e1, e2⟩ := idx_o ⟨4 * (i 0).val + 3, hlt⟩
  have e0' : win0_4.index ⟨4 * (i 0).val + 3, hlt⟩ 0 = (i 0).val := by rw [e0]; show (4 * (i 0).val + 3) / 4 = (i 0).val; omega
  intro a
  match a with
  | ⟨0, _⟩ => show win0_4.index ⟨4 * (i 0).val + 3, hlt⟩ 0 * 1 ≤ (i 0).val ∧ (i 0).val < win0_4.index ⟨4 * (i 0).val + 3, hlt⟩ 0 * 1 + 1; rw [e0']; omega
  | ⟨1, _⟩ => show win0_4.index ⟨4 * (i 0).val + 3, hlt⟩ 1 * 2048 ≤ (i 1).val ∧ (i 1).val < win0_4.index ⟨4 * (i 0).val + 3, hlt⟩ 1 * 2048 + 2048; rw [e1]; omega
  | ⟨2, _⟩ => show win0_4.index ⟨4 * (i 0).val + 3, hlt⟩ 2 * 128 ≤ (i 2).val ∧ (i 2).val < win0_4.index ⟨4 * (i 0).val + 3, hlt⟩ 2 * 128 + 128; rw [e2]; omega

/-- The result array after the run. -/
theorem final (c : Dev nD) : (dats m 0 c).arrAt 4 cfg0.N = result m c :=
  (dats m 0 c).arrAt_eq_of_cover 4 (result m c) (flushed_eq m c) cover

/-- Every weakly fair execution of the idealized kernel ends with the result array at the attention function of the
    arguments' launch contents and the arguments unchanged. -/
theorem run : θ_run defs (onTc (τ := τ) (main (F := Ideal))) ⟨m, fun _ => 0, ρ⟩ fun r => ∀ c : Dev nD,
      r.2.mem ((c : Thread nD τ).loc main_v0)
        = Cert.Attn.attn (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Final

end
-- ==== Proof.RefIsAttn.lean ====
/-
  The reference program's result, read one operation at a time, is the attention function of the specification.
-/
import proofs.«155042_j82987358094192_1_alg».proof.Proof.Gen.ReferenceIdeal.Read
import proofs.«155042_j82987358094192_1_alg».proof.Proof.Spec

noncomputable section

namespace Cert.RefAttn

open Idealize.ShloMosaic Idealize.ShloMosaic.ValueIdx Cert.ReferenceIdeal Cert.ReferenceIdeal.Read

/-- The last stage of the reference, as a function of the four arguments, is `Cert.Attn.attn` of them.

    At the index (b, m, d) the last contraction is the sum over the key row n of the previous stage at (b, m, n)
    times v (b, n, d). The previous stage at (b, m, n) is 1 · (1 / (1 + exp (−(s · Σ_kk q (b, m, kk) · k (b, n, kk)
    + bias (b, m, n))))): the pattern of one denotes one, one times a number is the number, and what is left is the
    logistic function of the scaled inner product plus the bias by that function's definition, so the summand is the
    specification's weight times value, key by key. -/
theorem ref_eq (x0 x1 x2 : (⟨S16x2048x128, .f32⟩ : BufTy).Contents (Elt Ideal))
    (x3 : (⟨S16x2048x2048, .f32⟩ : BufTy).Contents (Elt Ideal)) :
    val_main_v12 (F := Ideal) x0 x1 x2 x3 = Cert.Attn.attn x0 x1 x2 x3 := by
  funext i
  rw [val_main_v12_apply]
  unfold Cert.Attn.attn Cert.Attn.attnAt
  refine Finset.sum_congr rfl fun n _ => ?_
  -- the indices the two contractions read at, written through their coordinates
  have e12l : lidx_main_v12 i n = ix3 (n0 := 16) (n1 := 2048) (n2 := 2048) (i 0) (i 1) n :=
    funext fun a => Fin.ext (by match a with | ⟨0, _⟩ => rfl | ⟨1, _⟩ => rfl | ⟨2, _⟩ => rfl)
  have e12r : ridx_main_v12 i n = ix3 (n0 := 16) (n1 := 2048) (n2 := 128) (i 0) n (i 2) :=
    funext fun a => Fin.ext (by match a with | ⟨0, _⟩ => rfl | ⟨1, _⟩ => rfl | ⟨2, _⟩ => rfl)
  have e0l : ∀ kk : Fin 128, lidx_main_v0 (ix3 (n0 := 16) (n1 := 2048) (n2 := 2048) (i 0) (i 1) n) kk
      = ix3 (n0 := 16) (n1 := 2048) (n2 := 128) (i 0) (i 1) kk := fun kk =>
    funext fun a => Fin.ext (by match a with | ⟨0, _⟩ => rfl | ⟨1, _⟩ => rfl | ⟨2, _⟩ => rfl)
  have e0r : ∀ kk : Fin 128, ridx_main_v0 (ix3 (n0 := 16) (n1 := 2048) (n2 := 2048) (i 0) (i 1) n) kk
      = ix3 (n0 := 16) (n1 := 2048) (n2 := 128) (i 0) n kk := fun kk =>
    funext fun a => Fin.ext (by match a with | ⟨0, _⟩ => rfl | ⟨1, _⟩ => rfl | ⟨2, _⟩ => rfl)
  rw [e12l, e12r]
  -- the stages from the last product back to the first contraction, each read at its index
  rw [val_main_v11_apply, val_main_v10_apply, val_main_cst_2_apply, val_main_v9_apply, val_main_v8_apply,
    val_main_cst_1_apply, val_main_v7_apply, val_main_v6_apply, val_main_cst_0_apply, val_main_v5_apply,
    val_main_v4_apply, val_main_v3_apply, val_main_v2_apply, val_main_v1_apply, val_main_cst_apply,
    val_main_v0_apply]
  -- over the extended reals the operations are negation, the exponential, the quotient, sum and product;
  -- the pattern of one is one, and one times a number is the number
  simp only [e0l, e0r, Ideal.hostNegf_def, Ideal.negf_def, Ideal.hostUnary_exp_def, Ideal.hostDivf_def,
    Ideal.addf_def, Ideal.mulf_def, Ideal.ofBits_def, Cert.Attn.ofBits_one, one_mul]
  -- the logistic function is 1 / (1 + exp (−x)) by definition
  unfold Cert.Attn.weight Ideal.logistic
  rfl

end Cert.RefAttn

end
-- ==== Proof.lean ====
/-
  Sigmoid attention with an additive bias: out (b, m, d) = Σ_n logistic (s · ⟨q (b, m, ·), k (b, n, ·)⟩ + bias (b, m, n)) · v (b, n, d),
  with s one single-precision pattern shared by both programs.

  The kernel walks a grid of 16 batches by 4 key tiles of 512 rows. At each point it multiplies the batch's 2048 × 128
  query block with the key tile (both narrowed to a shorter format, which over the extended reals changes nothing),
  scales, adds the bias tile, applies the logistic function, multiplies by one, multiplies the 2048 × 512 weights with
  the value tile, and adds the product into an accumulator that is zeroed at a batch's first tile and written out after
  its last. The reference contracts over all 2048 keys at once and spells the logistic function as
  1 / (1 + exp (−x)), which is that function's definition over the extended reals.

  The two results agree because a sum over 2048 keys is the sum of its four consecutive blocks of 512 added in order
  onto zero: addition of extended reals is commutative and associative with no side condition, multiplication by the
  number one is the identity, and every other operation is the same on both sides. No input needs to be finite, so the
  precondition is never opened. The idealization rewrote nothing, so it is preserved trivially; the three frames are
  the generated runs.
-/
import proofs.«155042_j82987358094192_1_alg».proof.Defs
import proofs.«155042_j82987358094192_1_alg».proof.Proof.Gen.Kernel
import proofs.«155042_j82987358094192_1_alg».proof.Proof.Gen.Kernel.Skeleton
import proofs.«155042_j82987358094192_1_alg».proof.Proof.Gen.Kernel.Launch
import proofs.«155042_j82987358094192_1_alg».proof.Proof.Gen.Kernel.Points
import proofs.«155042_j82987358094192_1_alg».proof.Proof.Gen.Kernel.Frame
import proofs.«155042_j82987358094192_1_alg».proof.Proof.Gen.KernelIdeal
import proofs.«155042_j82987358094192_1_alg».proof.Proof.Gen.KernelIdeal.Skeleton
import proofs.«155042_j82987358094192_1_alg».proof.Proof.Gen.KernelIdeal.Launch
import proofs.«155042_j82987358094192_1_alg».proof.Proof.Gen.KernelIdeal.Points
import proofs.«155042_j82987358094192_1_alg».proof.Proof.Gen.KernelIdeal.Frame
import proofs.«155042_j82987358094192_1_alg».proof.Proof.Gen.ReferenceIdeal
import proofs.«155042_j82987358094192_1_alg».proof.Proof.Gen.Pre_finite_inputs
import proofs.«155042_j82987358094192_1_alg».proof.Proof.Gen.KernelIdeal.Value
import proofs.«155042_j82987358094192_1_alg».proof.Proof.Gen.ReferenceIdeal.Run
import proofs.«155042_j82987358094192_1_alg».proof.Proof.Gen.ReferenceIdeal.Read
import proofs.«155042_j82987358094192_1_alg».proof.Proof.Final
import proofs.«155042_j82987358094192_1_alg».proof.Proof.RefIsAttn
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : @Cert.frame_Kernel Cert.Kernel.Gen.facts Cert.Pre_finite_inputs.Gen.facts :=
  fun m ρ _ => Cert.Kernel.Gen.frame m ρ

/-- So does its idealization. -/
theorem frame_kernelIdeal : @Cert.frame_KernelIdeal Cert.KernelIdeal.Gen.facts Cert.Pre_finite_inputs.Gen.facts :=
  fun m ρ _ => Cert.KernelIdeal.Gen.frame m ρ

/-- The reference's frame is its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs end with the result array at the attention function of arguments that agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Attn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.RefAttn.ref_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
